-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4194304 : Shape := ⟨1, ![4194304]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4194304 32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4194304 : Shape := ⟨1, ![4194304]⟩
abbrev S4096 : Shape := ⟨1, ![4096]⟩
abbrev S4096x1024 : Shape := ⟨2, ![4096, 1024]⟩
abbrev S1x4096 : Shape := ⟨2, ![1, 4096]⟩
abbrev S8192x1024x4 : Shape := ⟨3, ![8192, 1024, 4]⟩
abbrev S8192x4x1024 : Shape := ⟨3, ![8192, 4, 1024]⟩
abbrev S1024x4x128 : Shape := ⟨3, ![1024, 4, 128]⟩
abbrev S1024x128 : Shape := ⟨2, ![1024, 128]⟩
abbrev S1x1024 : Shape := ⟨2, ![1, 1024]⟩
abbrev S1024x1024 : Shape := ⟨2, ![1024, 1024]⟩
abbrev S1024x1x128 : Shape := ⟨3, ![1024, 1, 128]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4194304, .i32⟩
  | .hbm, ⟨2, _⟩ => ⟨S4096, .f32⟩
  | .hbm, ⟨3, _⟩ => ⟨S4096x1024, .i32⟩
  | .hbm, ⟨4, _⟩ => ⟨S1x4096, .f32⟩
  | .hbm, ⟨5, _⟩ => ⟨S8192x1024x4, .f32⟩
  | .hbm, ⟨6, _⟩ => ⟨S8192x4x1024, .f32⟩
  | .hbm, ⟨7, _⟩ => ⟨S8192x4096, .f32⟩
  | .local _ .vmem, ⟨0, _⟩ => ⟨S1024x4x128, .f32⟩
  | .local _ .vmem, ⟨1, _⟩ => ⟨S1024x4x128, .f32⟩
  | .local _ .vmem, ⟨2, _⟩ => ⟨S1024x128, .i32⟩
  | .local _ .vmem, ⟨3, _⟩ => ⟨S1024x128, .i32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v97 : BitVec 1 := Scalar.cmpi .eq arg2 c7_i32
  let v98 : BitVec 32 := Scalar.extui v97
  let c0_i32_53 : BitVec 32 := 0#32
  let v99 : BitVec 1 := Scalar.cmpi .ne v98 c0_i32_53
  v99

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4194304_S4096x1024 : S4194304.ShapeCasts S4096x1024
  shapeCasts_S4096_S1x4096 : S4096.ShapeCasts S1x4096
  shapeCasts_S8192x4096_S8192x1024x4 : S8192x4096.ShapeCasts S8192x1024x4
  transposes_S8192x1024x4_S8192x4x1024_0_2_1 : S8192x1024x4.Transposes [0, 2, 1] S8192x4x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1024x4x128_S1024x1x128_0_0_0 : ∀ a, (![0, 0, 0] : Fin 3 → Nat) a + S1024x1x128.size a ≤ S1024x4x128.size a
  h_S1024x1x128 : 0 < S1024x1x128.numel
  shapeCasts_S1024x1x128_S1024x128 : S1024x1x128.ShapeCasts S1024x128
  inb_S1024x4x128_S1024x1x128_0_1_0 : ∀ a, (![0, 1, 0] : Fin 3 → Nat) a + S1024x1x128.size a ≤ S1024x4x128.size a
  inb_S1024x4x128_S1024x1x128_0_2_0 : ∀ a, (![0, 2, 0] : Fin 3 → Nat) a + S1024x1x128.size a ≤ S1024x4x128.size a
  inb_S1024x4x128_S1024x1x128_0_3_0 : ∀ a, (![0, 3, 0] : Fin 3 → Nat) a + S1024x1x128.size a ≤ S1024x4x128.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4x128.size a ≤ S8192x4x1024.size a
  hwx0_0 : ∀ i : grid0.Coords, EltTy.bits .f32 = 32 ∨ (Rect.block (s := S8192x4x1024) S1024x4x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x1024.size a
  hwx0_1 : ∀ i : grid0.Coords, EltTy.bits .i32 = 32 ∨ (Rect.block (s := S4096x1024) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v3) S1024x4x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4194304 : Shape := ⟨1, ![4194304]⟩
abbrev S4096 : Shape := ⟨1, ![4096]⟩
abbrev S4 : Shape := ⟨1, ![4]⟩
abbrev S_ : Shape := ⟨0, ![]⟩
abbrev S4194304x1 : Shape := ⟨2, ![4194304, 1]⟩
abbrev S1x4 : Shape := ⟨2, ![1, 4]⟩
abbrev S4194304x4 : Shape := ⟨2, ![4194304, 4]⟩
abbrev S16777216 : Shape := ⟨1, ![16777216]⟩
abbrev S4096x4096 : Shape := ⟨2, ![4096, 4096]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4194304, .i32⟩
  | .hbm, ⟨2, _⟩ => ⟨S4096, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S4194304x1, .i32⟩
  | .hbm, ⟨8, _⟩ => ⟨S1x4, .i32⟩
  | .hbm, ⟨9, _⟩ => ⟨S4194304x4, .i32⟩
  | .hbm, ⟨10, _⟩ => ⟨S4194304x4, .i32⟩
  | .hbm, ⟨11, _⟩ => ⟨S4194304x4, .i32⟩
  | .hbm, ⟨12, _⟩ => ⟨S_, .i32⟩
  | .hbm, ⟨13, _⟩ => ⟨S4194304x4, .i32⟩
  | .hbm, ⟨14, _⟩ => ⟨S4194304x4, .i32⟩
  | .hbm, ⟨15, _⟩ => ⟨S16777216, .i32⟩
  | .hbm, ⟨16, _⟩ => ⟨S_, .i32⟩
  | .hbm, ⟨17, _⟩ => ⟨S16777216, .i32⟩
  | .hbm, ⟨18, _⟩ => ⟨S16777216, .i1⟩
  | .hbm, ⟨19, _⟩ => ⟨S_, .i32⟩
  | .hbm, ⟨20, _⟩ => ⟨S16777216, .i32⟩
  | .hbm, ⟨21, _⟩ => ⟨S16777216, .i1⟩
  | .hbm, ⟨22, _⟩ => ⟨S_, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S4096x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_cst_4 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4194304_S4194304x1_0 : S4194304.BroadcastsInDim S4194304x1 (![0] : Fin 1 → Fin S4194304x1.rank)
  bcast_S4_S1x4_1 : S4.BroadcastsInDim S1x4 (![1] : Fin 1 → Fin S1x4.rank)
  bcast_S4194304x1_S4194304x4_0_1 : S4194304x1.BroadcastsInDim S4194304x4 (![0, 1] : Fin 2 → Fin S4194304x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  shapeCasts_S4194304x4_S16777216 : S4194304x4.ShapeCasts S16777216
  bcast_S_S16777216 : S_.BroadcastsInDim S16777216 (![] : Fin 0 → Fin S16777216.rank)
  shapeCasts_S16777216_S4096x4096 : S16777216.ShapeCasts S4096x4096
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, and the arithmetic that joins their two summation orders.

  A weight matrix of 4096 x 4096 ternary entries is stored four to a 32-bit word: entry (o, i) is the 2-bit
  code at bits 2*(i mod 4), 2*(i mod 4) + 1 of word o * 1024 + i / 4, and a code stands for +1 (code 1), -1 (code 2)
  or 0 (codes 0 and 3). The result at (t, o) is (sum over i of x[t, i] * w[o, i]) * alpha + bias[o].

  The reference sums over i = 0 .. 4095 in one go. The kernel visits the same terms as i = 512 * s + 4 * c + j, for
  a reduction step s < 8, a sub-position j < 4 and a packed column c < 128: `splitIdx` is that bijection and
  `sum_split` the regrouping of the sum along it (a finite sum in a commutative monoid: no finiteness needed).
-/
import Idealize.ShloMosaic.PureOps.Ideal
import Idealize.ShloMosaic.PureOps.Ideal.Laws
import Idealize.ShloMosaic.Lib.ValueIdx

noncomputable section

namespace Cert.PackedTernary

open Idealize.ShloMosaic Idealize.ShloMosaic.ValueIdx

/-- The activations, the packed words, the bias; the result has the activations' shape. -/
abbrev SX : Shape := ⟨2, ![8192, 4096]⟩
abbrev SP : Shape := ⟨1, ![4194304]⟩
abbrev SB : Shape := ⟨1, ![4096]⟩
/-- One grid point's blocks: activations (rows, sub-position, packed column), words (output rows, packed column),
    and the accumulator (rows, output rows). -/
abbrev SXb : Shape := ⟨3, ![1024, 4, 128]⟩
abbrev SPb : Shape := ⟨2, ![1024, 128]⟩
abbrev SOb : Shape := ⟨2, ![1024, 1024]⟩

/-- The weight a 2-bit code stands for: +1 for code 1, -1 for code 2, 0 otherwise (the three float words as
    both programs spell them). -/
def tern (c : BitVec 32) : EReal :=
  Scalar.select (IntOp.cmpi .eq c 1#32) (Ideal.ofBits .f32 0x3F800000#32)
    (Scalar.select (IntOp.cmpi .eq c 2#32) (Ideal.ofBits .f32 0xBF800000#32) (Ideal.ofBits .f32 0x00000000#32))

/-- Sub-code `j` of a packed word: the word shifted right (arithmetically) by `2 * j` bits, masked to two bits. -/
def code (p : BitVec 32) (j : Nat) : BitVec 32 :=
  IntOp.andi (IntOp.shrsi .host p (BitVec.ofNat 32 (2 * j))) 3#32

/-- The word that holds weight (o, i). -/
def wordAt (o i : Fin 4096) : SP.Idx :=
  ix1 ⟨o.val * 1024 + i.val / 4, by have := o.isLt; have := i.isLt; omega⟩

/-- Weight (o, i) of the packed matrix. -/
def weight (P : SP.Idx → BitVec 32) (o i : Fin 4096) : EReal :=
  tern (code (P (wordAt o i)) (i.val % 4))

/-- THE RESULT: at (t, o), the dot product of activation row t with weight row o, scaled, plus the bias at o. -/
def dense (X : SX.Idx → EReal) (P : SP.Idx → BitVec 32) (B : SB.Idx → EReal) : SX.Idx → EReal := fun t =>
  (∑ i : Fin 4096, X (ix2 (t 0 : Fin 8192) i) * weight P (t 1 : Fin 4096) i) * Ideal.ofBits .f32 0x3D4CCCCD#32
    + B (ix1 (t 1 : Fin 4096))

/-! ## The kernel's order of summation -/

/-- Every i < 4096 is 512 * s + 4 * c + j for exactly one reduction step s, sub-position j and packed column c. -/
def splitIdx : Fin 8 × Fin 4 × Fin 128 ≃ Fin 4096 where
  toFun a := ⟨512 * a.1.val + 4 * a.2.2.val + a.2.1.val, by
    have := a.1.isLt; have := a.2.1.isLt; have := a.2.2.isLt; omega⟩
  invFun i := (⟨i.val / 512, by have := i.isLt; omega⟩, ⟨i.val % 4, by omega⟩, ⟨i.val % 512 / 4, by omega⟩)
  left_inv a := by
    obtain ⟨s, j, c⟩ := a
    have hs := s.isLt; have hj := j.isLt; have hc := c.isLt
    refine Prod.ext (Fin.ext ?_) (Prod.ext (Fin.ext ?_) (Fin.ext ?_))
    · show (512 * s.val + 4 * c.val + j.val) / 512 = s.val; omega
    · show (512 * s.val + 4 * c.val + j.val) % 4 = j.val; omega
    · show (512 * s.val + 4 * c.val + j.val) % 512 / 4 = c.val; omega
  right_inv i := by
    have hi := i.isLt
    refine Fin.ext ?_
    show 512 * (i.val / 512) + 4 * (i.val % 512 / 4) + i.val % 4 = i.val; omega

theorem splitIdx_val (s : Fin 8) (j : Fin 4) (c : Fin 128) :
    (splitIdx (s, j, c)).val = 512 * s.val + 4 * c.val + j.val := rfl

/-- A sum over i < 4096, regrouped as the kernel visits it. -/
theorem sum_split {M : Type*} [AddCommMonoid M] (f : Fin 4096 → M) :
    ∑ i, f i = ∑ s : Fin 8, ∑ j : Fin 4, ∑ c : Fin 128, f (splitIdx (s, j, c)) := by
  rw [← splitIdx.sum_comp f, Fintype.sum_prod_type]
  refine Finset.sum_congr rfl fun s _ => ?_
  rw [Fintype.sum_prod_type]

/-- What ONE of a grid point's four matrix products adds at (r, q) of the accumulator: over the packed columns c, the
    activation block at (r, j, c) times the weight decoded from sub-position j of the word block at (q, c). -/
def part (x0 : SXb.Idx → EReal) (x1 : SPb.Idx → BitVec 32) (j : Fin 4) (i : SOb.Idx) : EReal :=
  ∑ c : Fin 128, x0 (ix3 (i 0 : Fin 1024) j c) * tern (code (x1 (ix2 (i 1 : Fin 1024) c)) j.val)

/-- What a grid point adds to the accumulator: its four products, in the body's order. -/
def addend (x0 : SXb.Idx → EReal) (x1 : SPb.Idx → BitVec 32) (i : SOb.Idx) : EReal :=
  part x0 x1 0 i + part x0 x1 1 i + part x0 x1 2 i + part x0 x1 3 i

/-- When the blocks are the arrays' at reduction step s — the activation block's (r, j, c) is activation row R at
    column 512 s + 4 c + j, the word block's (q, c) is the word of output row O at packed column 128 s + c —, the
    point's addend at (r, q) is the terms of row R against weight row O over that step's 512 columns. -/
theorem addend_eq (X : SX.Idx → EReal) (P : SP.Idx → BitVec 32) (R : Fin 8192) (O : Fin 4096) (s : Fin 8)
    (x0 : SXb.Idx → EReal) (x1 : SPb.Idx → BitVec 32) (r q : Fin 1024)
    (hx0 : ∀ (j : Fin 4) (c : Fin 128), x0 (ix3 r j c) = X (ix2 R (splitIdx (s, j, c))))
    (hx1 : ∀ (j : Fin 4) (c : Fin 128), x1 (ix2 q c) = P (wordAt O (splitIdx (s, j, c)))) :
    addend x0 x1 (ix2 r q)
      = ∑ j : Fin 4, ∑ c : Fin 128, X (ix2 R (splitIdx (s, j, c))) * weight P O (splitIdx (s, j, c)) := by
  have hmod : ∀ (j : Fin 4) (c : Fin 128), (splitIdx (s, j, c)).val % 4 = j.val := fun j c => by
    rw [splitIdx_val]; have := j.isLt; omega
  have hp : ∀ j : Fin 4, part x0 x1 j (ix2 r q)
      = ∑ c : Fin 128, X (ix2 R (splitIdx (s, j, c))) * weight P O (splitIdx (s, j, c)) := fun j => by
    unfold part weight
    refine Finset.sum_congr rfl fun c _ => ?_
    show x0 (ix3 r j c) * tern (code (x1 (ix2 q c)) j.val) = _
    rw [hx0 j c, hx1 j c, hmod j c]
  unfold addend
  rw [Fin.sum_univ_four, hp 0, hp 1, hp 2, hp 3]

end Cert.PackedTernary

end
-- ==== Proof.RefIsDense.lean ====
/-
  The reference computes `dense`.

  Its program unpacks every word into four codes (shift by 0, 2, 4, 6 bits — the amounts `iota * 2` — and mask),
  lays the codes out flat, maps them to weights by two selects, reshapes to 4096 x 4096, and takes one matrix
  product with the activations, scales, and adds the bias row. Read at an index (t, o): flat position o * 4096 + i
  sits in word (o * 4096 + i) / 4 = o * 1024 + i / 4 at sub-position (o * 4096 + i) mod 4 = i mod 4, which is
  where `weight` looks.
-/
import proofs.«404494_j91259465105414_3_alg».proof.Proof.Gen.ReferenceIdeal.Read
import proofs.«404494_j91259465105414_3_alg».proof.Proof.Spec

noncomputable section

namespace Cert.PackedTernary.Ref

open Cert.ReferenceIdeal Cert.ReferenceIdeal.Gen Cert.ReferenceIdeal.Read Cert.PackedTernary
open Idealize.ShloMosaic Idealize.ShloMosaic.ValueIdx

/-- The shift amount of sub-position j: the reference forms it as (the word j) * 2. -/
theorem shift_amount (j : Nat) (h : j < 4) : IntOp.muli (BitVec.ofNat 32 j) 2#32 = BitVec.ofNat 32 (2 * j) := by
  interval_cases j <;> rfl

/-- The reshaped weight matrix at (o, i) is weight (o, i) of the packed words. -/
theorem weight_eq (P : S4194304.Idx → BitVec 32) (i : S4096x4096.Idx) :
    val_main_v18 (F := Ideal) P i = weight P (i 0 : Fin 4096) (i 1 : Fin 4096) := by
  have h0 : (i 0).val < 4096 := (i 0).isLt
  have h1 : (i 1).val < 4096 := (i 1).isLt
  have hw : idx_main_v3 (idx_main_v5 (idx_main_v10 (idx_main_v18 i))) = wordAt (i 0 : Fin 4096) (i 1 : Fin 4096) := by
    funext a
    match a with
    | ⟨0, _⟩ => exact Fin.ext (by show ((i 0).val * 4096 + (i 1).val) / 4 = (i 0).val * 1024 + (i 1).val / 4; omega)
  have hs : IntOp.muli (BitVec.ofNat 32 ((idx_main_v4 (idx_main_v6 (idx_main_v10 (idx_main_v18 i)))) 0).val) 2#32
      = BitVec.ofNat 32 (2 * ((i 1).val % 4)) := by
    show IntOp.muli (BitVec.ofNat 32 (((i 0).val * 4096 + (i 1).val) % 4)) 2#32 = _
    rw [show ((i 0).val * 4096 + (i 1).val) % 4 = (i 1).val % 4 by omega]
    exact shift_amount _ (Nat.mod_lt _ (by decide))
  simp only [val_main_v18_apply, val_main_v17_apply, val_main_v16_apply, val_main_v15_apply, val_main_v12_apply,
    val_main_v14_apply, val_main_v10_apply, val_main_v9_apply, val_main_v7_apply, val_main_v5_apply, val_main_v3_apply,
    val_main_v6_apply, val_main_v4_apply, val_main_v2_apply, val_main_v0_apply, val_main_v1_apply, val_main_c_apply,
    val_main_v8_apply, val_main_c_0_apply, val_main_v11_apply, val_main_c_1_apply, val_main_v13_apply, val_main_c_2_apply,
    val_main_call1_v0_apply, val_main_cst_4_apply, val_main_call0_v0_apply, val_main_cst_apply, val_main_call0_v1_apply,
    val_main_cst_3_apply]
  rw [hw, hs]
  rfl

/-- The reference's result is `dense` of its arguments. -/
theorem ref_eq (X : S8192x4096.Idx → EReal) (P : S4194304.Idx → BitVec 32) (B : S4096.Idx → EReal) :
    val_main_v24 (F := Ideal) X P B = dense X P B := by
  funext t
  have el : ∀ k : Fin 4096, lidx_main_v19 t k = ix2 (t 0 : Fin 8192) k := fun k =>
    funext fun a => Fin.ext (by match a with | ⟨0, _⟩ => rfl | ⟨1, _⟩ => rfl)
  have eb : idx_main_v22 (idx_main_v23 t) = ix1 (t 1 : Fin 4096) :=
    funext fun a => Fin.ext (by match a with | ⟨0, _⟩ => rfl)
  rw [val_main_v24_apply, val_main_v21_apply, val_main_v19_apply, val_main_v20_apply, val_main_cst_5_apply,
    val_main_v23_apply, val_main_v22_apply, eb]
  unfold dense
  show (∑ k : Fin 4096, X (lidx_main_v19 t k) * val_main_v18 (F := Ideal) P (ridx_main_v19 t k))
      * Ideal.ofBits .f32 0x3D4CCCCD#32 + B (ix1 (t 1 : Fin 4096)) = _
  refine congrArg (fun z => z * Ideal.ofBits .f32 0x3D4CCCCD#32 + B (ix1 (t 1 : Fin 4096))) ?_
  refine Finset.sum_congr rfl fun k _ => ?_
  rw [el k, weight_eq]
  rfl

end Cert.PackedTernary.Ref

end
-- ==== Proof.LibReadCov.lean ====
/-
  A general lemma about covered loads, for any kernel whose body stores a whole staging or scratch buffer more than
  once in one run (an accumulator updated in several load-add-store rounds, a reset followed by updates).
-/
import Idealize.ShloMosaic.Lib.Pipeline.Value

namespace Cert.LibReadCov

open Idealize.ShloMosaic

/-- A load through the whole buffer (the unit rectangle at zero offsets of the buffer's own sizes) that follows a
    list of stores of which the LAST was through the whole buffer reads that last store's payload, whatever the
    earlier stores were. (The library's `View.readCov_unit_zero` is the case of exactly one store; a run that has
    stored the buffer k times hands a later load the list of all k pieces, last first.) -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.LibReadCov
-- ==== Proof.KCases.lean ====
/-
  What one run of the kernel's body leaves behind, case by case.

  The body keeps a 1024 x 1024 accumulator in a scratch buffer across the eight reduction steps of an output
  block. At every grid point it adds four matrix products into it, one per sub-position j of the packed words:
  the accumulator is loaded, a product added, and the sum stored back, four times (`step`). At the first
  reduction step the accumulator is first overwritten with zeros (`zeroAcc`); at the last, after the four updates,
  the accumulator times alpha plus the bias row is stored to the output block.

  Every store covers its whole buffer, so what a buffer holds at the end is its last store's payload, and a load
  that follows a store reads that store's payload: each case's contents is the body's own arithmetic composed.
-/
import proofs.«404494_j91259465105414_3_alg».proof.Proof.Gen.KernelIdeal.Value
import proofs.«404494_j91259465105414_3_alg».proof.Proof.Spec
import proofs.«404494_j91259465105414_3_alg».proof.Proof.LibReadCov
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.PackedTernary.Kernel

open Cert.KernelIdeal Cert.KernelIdeal.Gen Cert.LibReadCov

variable {F : FTy → Type} [FloatOps F]

theorem hz2 : (![0, 0] : Fin 2 → Nat) = fun _ => 0 := funext fun a => by fin_cases a <;> rfl

/-- The activation block's slab at sub-position j: rows x 1 x packed columns. -/
abbrev slab0 (x0 : Vec F S1024x4x128 .f32) : Vec F S1024x1x128 .f32 :=
  View.ld x0 (Rect.unit (s := S1024x4x128) ![0, 0, 0] S1024x1x128.size inb_S1024x4x128_S1024x1x128_0_0_0)
abbrev slab1 (x0 : Vec F S1024x4x128 .f32) : Vec F S1024x1x128 .f32 :=
  View.ld x0 (Rect.unit (s := S1024x4x128) ![0, 1, 0] S1024x1x128.size inb_S1024x4x128_S1024x1x128_0_1_0)
abbrev slab2 (x0 : Vec F S1024x4x128 .f32) : Vec F S1024x1x128 .f32 :=
  View.ld x0 (Rect.unit (s := S1024x4x128) ![0, 2, 0] S1024x1x128.size inb_S1024x4x128_S1024x1x128_0_2_0)
abbrev slab3 (x0 : Vec F S1024x4x128 .f32) : Vec F S1024x1x128 .f32 :=
  View.ld x0 (Rect.unit (s := S1024x4x128) ![0, 3, 0] S1024x1x128.size inb_S1024x4x128_S1024x1x128_0_3_0)

/-- One grid point's update of the accumulator: the four load-add-store rounds, composed. -/
def step (x0 : Vec F S1024x4x128 .f32) (x1 : Vec F S1024x128 .i32) (acc : Vec F S1024x1024 .f32) :
    Vec F S1024x1024 .f32 :=
  k0_pay2 (k0_pay5 x1) (slab3 x0)
    (k0_pay1 (k0_pay10 (k0_pay5 x1) (slab2 x0))
      (k0_pay9 (k0_pay7 x1) k0_pay8 (slab1 x0)
        (k0_pay6 x1 (slab0 x0) acc)))

/-- The zeros the first reduction step overwrites the accumulator with. -/
abbrev zeroAcc : Vec F S1024x1024 .f32 := k0_pay4 (F := F)

/-- A middle reduction step leaves the accumulator it found, updated. -/
theorem scratch_B (c : Dev nD) (i : grid0.Coords) (arg3 : Memref sig .tc .vmem S1024x4x128 .f32) (harg3 : arg3.IsWhole) (arg4 : Memref sig .tc .vmem S1024x128 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x4x128 .f32) (x1 : Vec F S1024x128 .i32) (x2 : Vec F S1x1024 .f32) (xs0 : Vec F S1024x1024 .f32) :
    sout0_B_0 c i arg3 harg3 arg4 harg4 arg5 harg5 arg6 harg6 arg7 harg7 hc0 hc1 x0 x1 x2 xs0 = step x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_cons_unit_zero (S := S1024x1024) hz2]
  simp only [readCov_cons_unit_zero (S := S1024x1024) _ hz2, View.readCov_unit_zero (S := S1024x1024) _ hz2,
    View.readAt_eq_ld, harg3.read_unread, harg4.read_unread, harg7.read_unread,
    View.ld_unit_zero (S := S1024x1024) hz2, View.ld_unit_zero (S := S1024x128) hz2]
  rfl

/-- The first reduction step overwrites the accumulator with zeros, then updates it: what it held before does not
    enter. -/
theorem scratch_A (c : Dev nD) (i : grid0.Coords) (arg3 : Memref sig .tc .vmem S1024x4x128 .f32) (harg3 : arg3.IsWhole) (arg4 : Memref sig .tc .vmem S1024x128 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x4x128 .f32) (x1 : Vec F S1024x128 .i32) (x2 : Vec F S1x1024 .f32) :
    sout0_A_0 c i arg3 harg3 arg4 harg4 arg5 harg5 arg6 harg6 arg7 harg7 hc0 hc1 x0 x1 x2 = step x0 x1 zeroAcc := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2]
  simp only [readCov_cons_unit_zero (S := S1024x1024) _ hz2, View.readCov_unit_zero (S := S1024x1024) _ hz2,
    View.readAt_eq_ld, harg3.read_unread, harg4.read_unread, harg7.read_unread,
    View.ld_unit_zero (S := S1024x1024) hz2, View.ld_unit_zero (S := S1024x128) hz2]
  rfl

/-- The last reduction step updates the accumulator like any other … -/
theorem scratch_C (c : Dev nD) (i : grid0.Coords) (arg3 : Memref sig .tc .vmem S1024x4x128 .f32) (harg3 : arg3.IsWhole) (arg4 : Memref sig .tc .vmem S1024x128 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x4x128 .f32) (x1 : Vec F S1024x128 .i32) (x2 : Vec F S1x1024 .f32) (xs0 : Vec F S1024x1024 .f32) :
    sout0_C_0 c i arg3 harg3 arg4 harg4 arg5 harg5 arg6 harg6 arg7 harg7 hc0 hc1 x0 x1 x2 xs0 = step x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_cons_unit_zero (S := S1024x1024) hz2]
  simp only [readCov_cons_unit_zero (S := S1024x1024) _ hz2, View.readCov_unit_zero (S := S1024x1024) _ hz2,
    View.readAt_eq_ld, harg3.read_unread, harg4.read_unread, harg7.read_unread,
    View.ld_unit_zero (S := S1024x1024) hz2, View.ld_unit_zero (S := S1024x128) hz2]
  rfl

/-- … and then stores to the output block the updated accumulator scaled, plus the bias row (`k0_pay3`). -/
theorem out_C (c : Dev nD) (i : grid0.Coords) (arg3 : Memref sig .tc .vmem S1024x4x128 .f32) (harg3 : arg3.IsWhole) (arg4 : Memref sig .tc .vmem S1024x128 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x4x128 .f32) (x1 : Vec F S1024x128 .i32) (x2 : Vec F S1x1024 .f32) (xs0 : Vec F S1024x1024 .f32) :
    out0_C_3 c i arg3 harg3 arg4 harg4 arg5 harg5 arg6 harg6 arg7 harg7 hc0 hc1 x0 x1 x2 xs0 = k0_pay3 (step x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) hz2]
  simp only [readCov_cons_unit_zero (S := S1024x1024) _ hz2, View.readCov_unit_zero (S := S1024x1024) _ hz2,
    View.readAt_eq_ld, harg3.read_unread, harg4.read_unread, harg5.read_unread, harg7.read_unread,
    View.ld_unit_zero (S := S1024x1024) hz2, View.ld_unit_zero (S := S1024x128) hz2, View.ld_unit_zero (S := S1x1024) hz2]
  rfl

end Cert.PackedTernary.Kernel

end
-- ==== Proof.LibShrsi.lean ====
/-
  A general lemma about the two units' arithmetic right shift on 32-bit words, for any kernel that unpacks bit
  fields with `>>` in its body while its reference does so on the host.
-/
import Idealize.ShloMosaic.PureOps

namespace Cert.LibShrsi

open Idealize.ShloMosaic

/-- For a shift amount below the word width the vector unit's arithmetic right shift and the host's are the same
    function (both are the sign-extending shift; they differ only in what a shift by the width or more gives). -/
theorem shrsi_vector (p s : BitVec 32) (h : s.toNat < 32) : IntOp.shrsi .vector p s = IntOp.shrsi .host p s := by
  unfold IntOp.shrsi; rw [if_pos h, if_pos h]

end Cert.LibShrsi
-- ==== Proof.KStep.lean ====
/-
  One grid point's update of the accumulator, read at an entry, over the extended reals.

  A format change is the identity there, a matrix product into a zero accumulator is the plain sum of products over
  the contracted axis, and the selects that turn a 2-bit code into a weight are `tern`. So each of the body's four
  load-add-store rounds adds, at (r, q), the sum over the packed columns c of the activation block at (r, j, c) times
  the weight decoded from sub-position j of the word block at (q, c) — `part` — and the four together add the
  point's `addend`. (The vector unit's arithmetic right shift and the host's agree for shifts below the word
  width; the amounts here are 0, 2, 4, 6.)
-/
import proofs.«404494_j91259465105414_3_alg».proof.Proof.KCases
import proofs.«404494_j91259465105414_3_alg».proof.Proof.LibShrsi
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.PackedTernary.Kernel

open Cert.KernelIdeal Cert.KernelIdeal.Gen Cert.PackedTernary Cert.LibShrsi

/-! ## The body's matrix product at an entry -/

theorem lhs_prod_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_prod_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_prod_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_prod_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of a rows x columns block with an output-rows x columns block, contracted over the columns, into
    zeros: at (r, q), the sum over the columns c of left (r, c) times right (q, c). -/
theorem product_apply (lhs rhs : FVec Ideal S1024x128 .bf16) (r q : Fin 1024) :
    matmul dot_S1024x128_S1024x128_S1024x1024_1_1_0_0_n_n none lhs rhs (constant S1024x1024 .f32 0x00000000#32) (ix2 r q)
      = ∑ c : Fin 128, lhs (ix2 r c) * rhs (ix2 q c) := by
  refine (Ideal.matmul_constant_zero_apply dot_S1024x128_S1024x128_S1024x1024_1_1_0_0_n_n none lhs rhs (ix2 r q)).trans ?_
  rw [← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 r q) ((ValueIdx.contrEquiv1 dot_S1024x128_S1024x128_S1024x1024_1_1_0_0_n_n 128 rfl rfl).symm k) = ix2 r k := funext fun a => Fin.ext (by
    match a with
    | ⟨0, _⟩ => exact lhs_prod_0 _ _
    | ⟨1, _⟩ => exact (lhs_prod_1 _ _).trans hk)
  have er : dot_S1024x128_S1024x128_S1024x1024_1_1_0_0_n_n.rhsIdx (ix2 r q) ((ValueIdx.contrEquiv1 dot_S1024x128_S1024x128_S1024x1024_1_1_0_0_n_n 128 rfl rfl).symm k) = ix2 q k := funext fun a => Fin.ext (by
    match a with
    | ⟨0, _⟩ => exact rhs_prod_0 _ _
    | ⟨1, _⟩ => exact (rhs_prod_1 _ _).trans hk)
  rw [el, er]

/-! ## The operands of a round at an entry -/

/-- The slab of the activation block at sub-position j, its unit axis dropped, at (r, c) is the block at (r, j, c). -/
theorem slab_apply (x0 : Vec Ideal S1024x4x128 .f32) (j : Fin 4) (off : Fin 3 → Nat) (hoff : off = ![0, j.val, 0])
    (inb : ∀ a, off a + S1024x1x128.size a ≤ S1024x4x128.size a) (r : Fin 1024) (c : Fin 128) :
    shapeCast S1024x128 (View.ld x0 (Rect.unit (s := S1024x4x128) off S1024x1x128.size inb) : Vec Ideal S1024x1x128 .f32)
      shapeCasts_S1024x1x128_S1024x128 (ix2 r c) = x0 (ix3 r j c) := by
  subst hoff
  refine (shapeCast_apply _ shapeCasts_S1024x1x128_S1024x128 (ix2 r c) (ix3 r (0 : Fin 1) c) ?_).trans ?_
  · rw [Shape.rowMajor_val_three, Shape.rowMajor_val_two]
    show (r.val * 1 + 0) * 128 + c.val = r.val * 128 + c.val
    omega
  · show x0 _ = x0 _
    refine congrArg x0 (funext fun a => Fin.ext ?_)
    match a with
    | ⟨0, _⟩ => show 0 + 1 * r.val = r.val; omega
    | ⟨1, _⟩ => show j.val + 1 * 0 = j.val; omega
    | ⟨2, _⟩ => show 0 + 1 * c.val = c.val; omega

/-- The two selects on a sub-code, at an entry, are the weight the code stands for. -/
theorem decode_apply (w : BitVec 32) (sh : BitVec 32) (j : Fin 4) (hsh : sh = BitVec.ofNat 32 (2 * j.val)) :
    Scalar.select (IntOp.cmpi .eq (IntOp.andi (IntOp.shrsi .vector w sh) 3#32) 1#32) (Ideal.ofBits .f32 0x3F800000#32)
      (Scalar.select (IntOp.cmpi .eq (IntOp.andi (IntOp.shrsi .vector w sh) 3#32) 2#32) (Ideal.ofBits .f32 0xBF800000#32)
        (Ideal.ofBits .f32 0x00000000#32))
      = tern (code w j.val) := by
  subst hsh
  have hj : (BitVec.ofNat 32 (2 * j.val)).toNat < 32 := by fin_cases j <;> decide
  unfold tern code
  rw [shrsi_vector _ _ hj]

/-! ## The four rounds, and the update -/

/-- Round 0: the accumulator plus the product at sub-position 0. -/
theorem round0_apply (x0 : Vec Ideal S1024x4x128 .f32) (x1 : Vec Ideal S1024x128 .i32) (acc : Vec Ideal S1024x1024 .f32)
    (r q : Fin 1024) :
    k0_pay6 (F := Ideal) x1 (slab0 x0) acc (ix2 r q) = acc (ix2 r q) + part x0 x1 0 (ix2 r q) := by
  unfold k0_pay6 k0_pay5
  simp only [shapeCast_self]
  show acc (ix2 r q) + matmul (F := Ideal) dot_S1024x128_S1024x128_S1024x1024_1_1_0_0_n_n none _ _ (constant (F := Ideal) S1024x1024 .f32 0x00000000#32) (ix2 r q) = _
  refine congrArg (acc (ix2 r q) + ·) ((product_apply _ _ r q).trans ?_)
  unfold part
  refine Finset.sum_congr rfl fun c _ => ?_
  refine congrArg₂ (· * ·) (slab_apply x0 0 _ rfl _ r c) ?_
  exact decode_apply (x1 (ix2 q c)) 0#32 0 rfl

/-- Round 1: the same at sub-position 1. -/
theorem round1_apply (x0 : Vec Ideal S1024x4x128 .f32) (x1 : Vec Ideal S1024x128 .i32) (acc : Vec Ideal S1024x1024 .f32)
    (r q : Fin 1024) :
    k0_pay9 (F := Ideal) (k0_pay7 x1) k0_pay8 (slab1 x0) acc (ix2 r q) = acc (ix2 r q) + part x0 x1 1 (ix2 r q) := by
  unfold k0_pay9 k0_pay7 k0_pay8 k0_pay5
  simp only [shapeCast_self]
  show acc (ix2 r q) + matmul (F := Ideal) dot_S1024x128_S1024x128_S1024x1024_1_1_0_0_n_n none _ _ (constant (F := Ideal) S1024x1024 .f32 0x00000000#32) (ix2 r q) = _
  refine congrArg (acc (ix2 r q) + ·) ((product_apply _ _ r q).trans ?_)
  unfold part
  refine Finset.sum_congr rfl fun c _ => ?_
  refine congrArg₂ (· * ·) (slab_apply x0 1 _ rfl _ r c) ?_
  exact decode_apply (x1 (ix2 q c)) 2#32 1 rfl

/-- Round 2. -/
theorem round2_apply (x0 : Vec Ideal S1024x4x128 .f32) (x1 : Vec Ideal S1024x128 .i32) (acc : Vec Ideal S1024x1024 .f32)
    (r q : Fin 1024) :
    k0_pay1 (F := Ideal) (k0_pay10 (k0_pay5 x1) (slab2 x0)) acc (ix2 r q) = acc (ix2 r q) + part x0 x1 2 (ix2 r q) := by
  unfold k0_pay1 k0_pay10 k0_pay5
  simp only [shapeCast_self]
  show acc (ix2 r q) + matmul (F := Ideal) dot_S1024x128_S1024x128_S1024x1024_1_1_0_0_n_n none _ _ (constant (F := Ideal) S1024x1024 .f32 0x00000000#32) (ix2 r q) = _
  refine congrArg (acc (ix2 r q) + ·) ((product_apply _ _ r q).trans ?_)
  unfold part
  refine Finset.sum_congr rfl fun c _ => ?_
  refine congrArg₂ (· * ·) (slab_apply x0 2 _ rfl _ r c) ?_
  exact decode_apply (x1 (ix2 q c)) 4#32 2 rfl

/-- Round 3. -/
theorem round3_apply (x0 : Vec Ideal S1024x4x128 .f32) (x1 : Vec Ideal S1024x128 .i32) (acc : Vec Ideal S1024x1024 .f32)
    (r q : Fin 1024) :
    k0_pay2 (F := Ideal) (k0_pay5 x1) (slab3 x0) acc (ix2 r q) = acc (ix2 r q) + part x0 x1 3 (ix2 r q) := by
  unfold k0_pay2 k0_pay5
  simp only [shapeCast_self]
  show acc (ix2 r q) + matmul (F := Ideal) dot_S1024x128_S1024x128_S1024x1024_1_1_0_0_n_n none _ _ (constant (F := Ideal) S1024x1024 .f32 0x00000000#32) (ix2 r q) = _
  refine congrArg (acc (ix2 r q) + ·) ((product_apply _ _ r q).trans ?_)
  unfold part
  refine Finset.sum_congr rfl fun c _ => ?_
  refine congrArg₂ (· * ·) (slab_apply x0 3 _ rfl _ r c) ?_
  exact decode_apply (x1 (ix2 q c)) 6#32 3 rfl

/-- THE UPDATE at an entry: the accumulator plus the point's addend. -/
theorem step_apply (x0 : Vec Ideal S1024x4x128 .f32) (x1 : Vec Ideal S1024x128 .i32) (acc : Vec Ideal S1024x1024 .f32)
    (r q : Fin 1024) :
    step (F := Ideal) x0 x1 acc (ix2 r q) = acc (ix2 r q) + addend x0 x1 (ix2 r q) := by
  unfold step
  rw [round3_apply, round2_apply, round1_apply, round0_apply]
  unfold addend
  simp only [add_assoc]

/-- The zeros of the first step, at an entry. -/
theorem zeroAcc_apply (i : S1024x1024.Idx) : zeroAcc (F := Ideal) i = 0 := by
  unfold zeroAcc k0_pay4
  simp only [shapeCast_self]
  show Ideal.ofBits .f32 0x00000000#32 = 0
  exact Ideal.ofBits_zero_f32

/-- The output store at an entry: the accumulator scaled, plus the bias block's entry of that output row. -/
theorem outStore_apply (acc : Vec Ideal S1024x1024 .f32) (x2 : Vec Ideal S1x1024 .f32) (r q : Fin 1024) :
    k0_pay3 (F := Ideal) acc x2 (ix2 r q)
      = acc (ix2 r q) * Ideal.ofBits .f32 0x3D4CCCCD#32 + x2 (ix2 (0 : Fin 1) q) := by
  unfold k0_pay3
  simp only [shapeCast_self]
  show acc (ix2 r q) * Ideal.ofBits .f32 0x3D4CCCCD#32 + broadcastTo S1024x1024 x2 broadcasts_S1x1024_S1024x1024 (ix2 r q) = _
  refine congrArg (acc (ix2 r q) * Ideal.ofBits .f32 0x3D4CCCCD#32 + ·) ?_
  refine broadcastTo_apply x2 broadcasts_S1x1024_S1024x1024 (ix2 r q) (ix2 (0 : Fin 1) q) fun a => ?_
  match a with
  | ⟨0, _⟩ => show 0 = if (1 : Nat) = 1 then 0 else _; rw [if_pos rfl]
  | ⟨1, _⟩ => show q.val = if (1024 : Nat) = 1 then 0 else q.val; rw [if_neg (by decide)]

end Cert.PackedTernary.Kernel

end
-- ==== Proof.KBlocks.lean ====
/-
  The blocks the kernel's body is handed, as entries of the argument arrays.

  Before the launch the host reshapes the packed words to 4096 x 1024 (row o holds the 1024 words of output row
  o), the bias to 1 x 4096, and lays the activations out as x3[t, j, c] = x[t, 4 * c + j] (a reshape to
  8192 x 1024 x 4 and a transposition of the last two axes). The grid is 8 x 4 x 8, visited with the last axis
  fastest: point n has row block n / 32, output-row block (n / 8) mod 4 and reduction step n mod 8. Its activation
  block is rows 1024 * (n / 32) + r, all four sub-positions, packed columns 128 * (n mod 8) + c; its word block is
  output rows 1024 * ((n / 8) mod 4) + q at the same packed columns; its bias block the same output rows.
  So the activation block's (r, j, c) is x at column 512 * (n mod 8) + 4 * c + j — `splitIdx` of the step, the
  sub-position and the packed column —, and the word block's (q, c) is the word holding that column's weight.
-/
import proofs.«404494_j91259465105414_3_alg».proof.Proof.Gen.KernelIdeal.Value
import proofs.«404494_j91259465105414_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.PackedTernary.Kernel

open Cert.KernelIdeal Cert.KernelIdeal.Gen Cert.PackedTernary

variable {F : FTy → Type} [FloatOps F]
variable (m : (ℓ : Loc nD τ sig) → Buf (Elt F) ℓ)

theorem lt256 (t : Fin cfg0.N) : t.val < 256 := lt_of_lt_of_eq t.isLt (show cfg0.N = 256 from N_0)

/-- Point t's activation row for row r of its block, its output row for row q, and its reduction step. -/
def rowOf (t : Fin cfg0.N) (r : Fin 1024) : Fin 8192 := ⟨1024 * (t.val / 32) + r.val, by have := lt256 t; have := r.isLt; omega⟩
def colOf (t : Fin cfg0.N) (q : Fin 1024) : Fin 4096 := ⟨1024 * (t.val / 8 % 4) + q.val, by have := q.isLt; omega⟩
def stepOf (t : Fin cfg0.N) : Fin 8 := ⟨t.val % 8, by omega⟩

/-! ## Each window's block index at a point, decided over the grid -/

theorem index0 : ∀ t : Fin cfg0.N, win0_0.index t 0 = t.val / 32 ∧ win0_0.index t 1 = 0 ∧ win0_0.index t 2 = t.val % 8 :=
  (by decide +kernel : ∀ t : Fin grid0.N, win0_0.index t 0 = t.val / 32 ∧ win0_0.index t 1 = 0 ∧ win0_0.index t 2 = t.val % 8)
theorem index1 : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
theorem index2 : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)
theorem index3 : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-! ## What the region finds in the staged arrays -/

/-- The activations as the region finds them: reshaped, last two axes exchanged. -/
theorem V_acts (c : Dev nD) : (V m c main_v3 : Vec F S8192x4x1024 .f32)
    = transpose S8192x4x1024 [0, 2, 1]
        (shapeCast S8192x1024x4 (m ((c : Thread nD τ).loc main_arg0)) shapeCasts_S8192x4096_S8192x1024x4)
        transposes_S8192x1024x4_S8192x4x1024_0_2_1 := by
  dsimp only [V, hostOps0]; after_results; rfl

/-- The packed words as the region finds them: one row of 1024 words per output row. -/
theorem V_words (c : Dev nD) : (V m c main_v0 : Vec F S4096x1024 .i32)
    = shapeCast S4096x1024 (m ((c : Thread nD τ).loc main_arg1)) shapeCasts_S4194304_S4096x1024 := by
  dsimp only [V, hostOps0]; after_results; rfl

/-- The bias as the region finds it: one row. -/
theorem V_bias (c : Dev nD) : (V m c main_v1 : Vec F S1x4096 .f32)
    = shapeCast S1x4096 (m ((c : Thread nD τ).loc main_arg2)) shapeCasts_S4096_S1x4096 := by
  dsimp only [V, hostOps0]; after_results; rfl

/-- The activations the region finds, at (R, j, C): the argument at (R, 4 * C + j). -/
theorem acts_apply (c : Dev nD) (R : Fin 8192) (j : Fin 4) (C : Fin 1024) :
    (V m c main_v3 : Vec F S8192x4x1024 .f32) (ix3 R j C)
      = m ((c : Thread nD τ).loc main_arg0) (ix2 R (⟨4 * C.val + j.val, by have := C.isLt; have := j.isLt; omega⟩ : Fin 4096)) := by
  rw [V_acts]
  refine (transpose_apply [0, 2, 1] _ transposes_S8192x1024x4_S8192x4x1024_0_2_1 (ix3 R j C) (ix3 R C j) ?_).trans ?_
  · intro b
    match b with
    | ⟨0, _⟩ => rfl
    | ⟨1, _⟩ => rfl
    | ⟨2, _⟩ => rfl
  · refine shapeCast_apply _ shapeCasts_S8192x4096_S8192x1024x4 (ix3 R C j) (ix2 R (⟨4 * C.val + j.val, by have := C.isLt; have := j.isLt; omega⟩ : Fin 4096)) ?_
    rw [Shape.rowMajor_val_two, Shape.rowMajor_val_three]
    show R.val * 4096 + (4 * C.val + j.val) = (R.val * 1024 + C.val) * 4 + j.val
    omega

/-- The words the region finds, at (O, C): the argument's word O * 1024 + C. -/
theorem words_apply (c : Dev nD) (O : Fin 4096) (C : Fin 1024) :
    (V m c main_v0 : Vec F S4096x1024 .i32) (ix2 O C)
      = m ((c : Thread nD τ).loc main_arg1) (ix1 (⟨O.val * 1024 + C.val, by have := O.isLt; have := C.isLt; omega⟩ : Fin 4194304)) := by
  rw [V_words]
  refine shapeCast_apply _ shapeCasts_S4194304_S4096x1024 (ix2 O C) (ix1 (⟨O.val * 1024 + C.val, by have := O.isLt; have := C.isLt; omega⟩ : Fin 4194304)) ?_
  rw [Shape.rowMajor_val_one, Shape.rowMajor_val_two]
  rfl

/-- The bias row the region finds, at (0, O): the argument at O. -/
theorem bias_apply (c : Dev nD) (O : Fin 4096) :
    (V m c main_v1 : Vec F S1x4096 .f32) (ix2 (0 : Fin 1) O) = m ((c : Thread nD τ).loc main_arg2) (ix1 O) := by
  rw [V_bias]
  refine shapeCast_apply _ shapeCasts_S4096_S1x4096 (ix2 (0 : Fin 1) O) (ix1 O) ?_
  rw [Shape.rowMajor_val_one, Shape.rowMajor_val_two]
  show O.val = 0 * 4096 + O.val
  omega

/-! ## The blocks at a point -/

/-- Point t's activation block at (r, j, c): the activations' row `rowOf t r` at the column the step, the
    sub-position and the packed column name. -/
theorem xblk_apply (c : Dev nD) (t : Fin cfg0.N) (r : Fin 1024) (j : Fin 4) (cc : Fin 128) :
    (iblk m c 0 t : Vec F S1024x4x128 .f32) (ix3 r j cc)
      = m ((c : Thread nD τ).loc main_arg0) (ix2 (rowOf t r) (splitIdx (stepOf t, j, cc))) := by
  have hN := lt256 t
  obtain ⟨i0, i1, i2⟩ := index0 t
  unfold iblk
  rw [View.read_apply]
  show V m c main_v3 (((cfg0.win 0).blk t).view.emb (ix3 r j cc)) = _
  have e : ((cfg0.win 0).blk t).view.emb (ix3 r j cc)
      = ix3 (rowOf t r) j (⟨128 * (t.val % 8) + cc.val, by have := cc.isLt; omega⟩ : Fin 1024) := by
    funext a
    apply Fin.ext
    match a with
    | ⟨0, _⟩ => show win0_0.index t 0 * 1024 + 1 * r.val = 1024 * (t.val / 32) + r.val; rw [i0]; omega
    | ⟨1, _⟩ => show win0_0.index t 1 * 4 + 1 * j.val = j.val; rw [i1]; omega
    | ⟨2, _⟩ => show win0_0.index t 2 * 128 + 1 * cc.val = 128 * (t.val % 8) + cc.val; rw [i2]; omega
  rw [e, acts_apply]
  refine congrArg (fun z => m ((c : Thread nD τ).loc main_arg0) (ix2 (rowOf t r) z)) (Fin.ext ?_)
  show 4 * (128 * (t.val % 8) + cc.val) + j.val = 512 * (t.val % 8) + 4 * cc.val + j.val
  omega

/-- Point t's word block at (q, c): the word holding the weights of output row `colOf t q` at the step's packed
    column c — the same word for each of its four sub-positions. -/
theorem wblk_apply (c : Dev nD) (t : Fin cfg0.N) (q : Fin 1024) (j : Fin 4) (cc : Fin 128) :
    (iblk m c 1 t : Vec F S1024x128 .i32) (ix2 q cc)
      = m ((c : Thread nD τ).loc main_arg1) (wordAt (colOf t q) (splitIdx (stepOf t, j, cc))) := by
  have hN := lt256 t
  obtain ⟨i0, i1⟩ := index1 t
  unfold iblk
  rw [View.read_apply]
  show V m c main_v0 (((cfg0.win 1).blk t).view.emb (ix2 q cc)) = _
  have e : ((cfg0.win 1).blk t).view.emb (ix2 q cc)
      = ix2 (colOf t q) (⟨128 * (t.val % 8) + cc.val, by have := cc.isLt; omega⟩ : Fin 1024) := by
    funext a
    apply Fin.ext
    match a with
    | ⟨0, _⟩ => show win0_1.index t 0 * 1024 + 1 * q.val = 1024 * (t.val / 8 % 4) + q.val; rw [i0]; omega
    | ⟨1, _⟩ => show win0_1.index t 1 * 128 + 1 * cc.val = 128 * (t.val % 8) + cc.val; rw [i1]; omega
  rw [e, words_apply]
  refine congrArg (m ((c : Thread nD τ).loc main_arg1)) (funext fun a => Fin.ext ?_)
  match a with
  | ⟨0, _⟩ =>
    show (1024 * (t.val / 8 % 4) + q.val) * 1024 + (128 * (t.val % 8) + cc.val)
      = (1024 * (t.val / 8 % 4) + q.val) * 1024 + (512 * (t.val % 8) + 4 * cc.val + j.val) / 4
    have := j.isLt
    omega

/-- Point t's bias block at (0, q): the bias at output row `colOf t q`. -/
theorem bblk_apply (c : Dev nD) (t : Fin cfg0.N) (q : Fin 1024) :
    (iblk m c 2 t : Vec F S1x1024 .f32) (ix2 (0 : Fin 1) q) = m ((c : Thread nD τ).loc main_arg2) (ix1 (colOf t q)) := by
  have hN := lt256 t
  obtain ⟨i0, i1⟩ := index2 t
  unfold iblk
  rw [View.read_apply]
  show V m c main_v1 (((cfg0.win 2).blk t).view.emb (ix2 (0 : Fin 1) q)) = _
  have e : ((cfg0.win 2).blk t).view.emb (ix2 (0 : Fin 1) q) = ix2 (0 : Fin 1) (colOf t q) := by
    funext a
    apply Fin.ext
    match a with
    | ⟨0, _⟩ => show win0_2.index t 0 * 1 + 1 * 0 = 0; rw [i0]
    | ⟨1, _⟩ => show win0_2.index t 1 * 1024 + 1 * q.val = 1024 * (t.val / 8 % 4) + q.val; rw [i1]; omega
  rw [e, bias_apply]

end Cert.PackedTernary.Kernel

end
-- ==== Proof.KValue.lean ====
/-
  The kernel's result array is `dense` of its arguments.

  The accumulator after the point at reduction step k of an output block is the sum of the addends of the block's
  points at steps 0 .. k (it starts from zeros at step 0 and every point adds its own). At step 7 the body also
  stores accumulator * alpha + bias row to the output block, which is written back then and only then. The eight
  addends are the terms of one activation row against one weight row over the eight runs of 512 columns, so their sum
  is the reference's single sum over all 4096 columns, regrouped. The 32 output blocks, each written back once, tile
  the result array.
-/
import proofs.«404494_j91259465105414_3_alg».proof.Proof.KCases
import proofs.«404494_j91259465105414_3_alg».proof.Proof.KStep
import proofs.«404494_j91259465105414_3_alg».proof.Proof.KBlocks

noncomputable section

open Idealize.ShloMosaic Idealize.ShloMosaic.TcCoe Idealize.SL.Sem Idealize.ShloMosaic.ValueIdx
open Idealize.ShloMosaic.Pipeline (Dat)

namespace Cert.PackedTernary.Kernel

open Cert.KernelIdeal Cert.KernelIdeal.Gen Cert.PackedTernary

variable (m : (ℓ : Loc nD τ sig) → Buf (Elt Ideal) ℓ) (ρ : Dev nD → PrngReg)

/-- A point's three input blocks, at their literal types. -/
abbrev xblk (c : Dev nD) (t : Fin cfg0.N) : Vec Ideal S1024x4x128 .f32 := iblk m c 0 t
abbrev wblk (c : Dev nD) (t : Fin cfg0.N) : Vec Ideal S1024x128 .i32 := iblk m c 1 t
abbrev bblk (c : Dev nD) (t : Fin cfg0.N) : Vec Ideal S1x1024 .f32 := iblk m c 2 t

/-- The three argument arrays as launched, at their literal types. -/
abbrev actsArr (c : Dev nD) : SX.Idx → EReal := m ((c : Thread nD τ).loc main_arg0)
abbrev wordsArr (c : Dev nD) : SP.Idx → BitVec 32 := m ((c : Thread nD τ).loc main_arg1)
abbrev biasArr (c : Dev nD) : SB.Idx → EReal := m ((c : Thread nD τ).loc main_arg2)

/-! ## The accumulator, point by point -/

/-- At a first reduction step the accumulator ends at the update of zeros, whatever it held. -/
theorem scAt_first (c : Dev nD) (n : ℕ) (hb : n < cfg0.N) (h0 : n % 8 = 0) (acc : Vec Ideal S1024x1024 .f32) :
    Cert.KernelIdeal.Value.scAt0_0 m c n hb acc = step (xblk m c ⟨n, hb⟩) (wblk m c ⟨n, hb⟩) zeroAcc := by
  have h1 : ¬n % 8 = 7 := by omega
  unfold Cert.KernelIdeal.Value.scAt0_0
  rw [dif_pos h0, dif_neg h1]
  exact scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- At any later step it ends at the update of what the point before left. -/
theorem scAt_later (c : Dev nD) (n : ℕ) (hb : n < cfg0.N) (h0 : ¬n % 8 = 0) (acc : Vec Ideal S1024x1024 .f32) :
    Cert.KernelIdeal.Value.scAt0_0 m c n hb acc = step (xblk m c ⟨n, hb⟩) (wblk m c ⟨n, hb⟩) acc := by
  unfold Cert.KernelIdeal.Value.scAt0_0
  by_cases h1 : n % 8 = 7
  · rw [dif_neg h0, dif_pos h1]
    exact scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h0, dif_neg h1]
    exact scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- Point n's addend, for every natural n (zero past the grid, where it is never used). -/
def pointAdd (c : Dev nD) (n : ℕ) (i : S1024x1024.Idx) : EReal :=
  if h : n < cfg0.N then addend (xblk m c ⟨n, h⟩) (wblk m c ⟨n, h⟩) i else 0

/-- THE ACCUMULATOR after point t: the addends of its output block's points up to t, summed from zero. -/
theorem scratch_sum (c : Dev nD) (t : Fin cfg0.N) (i : S1024x1024.Idx) :
    (outsAt0 m c t.val t.isLt).2 i = 0 + ∑ s ∈ Finset.range (t.val % 8 + 1), pointAdd m c (8 * (t.val / 8) + s) i := by
  rw [Cert.KernelIdeal.Value.soutsAt0_0_eq m c t]
  refine Pipeline.accAt_add_apply (ι := S1024x1024.Idx) (β := EReal) _ _ (fun _ => 0) (pointAdd m c) (8 * (t.val / 8)) 7
    (fun h j => ?_) (fun n h acc j hbn hne => ?_) (t.val % 8) (by omega) _ i
  · show Cert.KernelIdeal.Value.scAt0_0 m c (8 * (t.val / 8)) h _ j = _
    rw [scAt_first m c _ h (by omega)]
    obtain ⟨r, q, rfl⟩ : ∃ (r q : Fin 1024), j = ix2 r q := ⟨j 0, j 1, eq_ix2 j⟩
    rw [step_apply, zeroAcc_apply]
    unfold pointAdd
    rw [dif_pos h]
  · show Cert.KernelIdeal.Value.scAt0_0 m c n h acc j = _
    rw [scAt_later m c n h (by omega) acc]
    obtain ⟨r, q, rfl⟩ : ∃ (r q : Fin 1024), j = ix2 r q := ⟨j 0, j 1, eq_ix2 j⟩
    rw [step_apply]
    unfold pointAdd
    rw [dif_pos h]

/-- At a last reduction step the output block's buffer ends at the output store of the accumulator as that point
    leaves it. -/
theorem out_last (c : Dev nD) (t : Fin cfg0.N) (h1 : t.val % 8 = 7) :
    (outsAt0 m c t.val t.isLt).1 = k0_pay3 ((outsAt0 m c t.val t.isLt).2) (bblk m c t) := by
  have h0 : ¬t.val % 8 = 0 := by omega
  rw [outsAt0_C m c t h0 h1]
  dsimp only
  rw [out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
    scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]

/-! ## The eight addends of an output block are the reference's sum -/

/-- Over the eight reduction steps of t's output block, the addends at (r, q) are all 4096 terms of activation row
    `rowOf t r` against weight row `colOf t q`. -/
theorem block_sum (c : Dev nD) (t : Fin cfg0.N) (r q : Fin 1024) :
    ∑ s ∈ Finset.range 8, pointAdd m c (8 * (t.val / 8) + s) (ix2 r q)
      = ∑ i : Fin 4096, actsArr m c (ix2 (rowOf t r) i) * weight (wordsArr m c) (colOf t q) i := by
  have hN := lt256 t
  rw [Finset.sum_range (fun s => pointAdd m c (8 * (t.val / 8) + s) (ix2 r q)), sum_split]
  refine Finset.sum_congr rfl fun s _ => ?_
  have hs := s.isLt
  have hts : 8 * (t.val / 8) + s.val < cfg0.N := lt_of_lt_of_eq (by omega) (show cfg0.N = 256 from N_0).symm
  have eR : rowOf (⟨8 * (t.val / 8) + s.val, hts⟩ : Fin cfg0.N) r = rowOf t r := Fin.ext (by
    show 1024 * ((8 * (t.val / 8) + s.val) / 32) + r.val = 1024 * (t.val / 32) + r.val; omega)
  have eO : colOf (⟨8 * (t.val / 8) + s.val, hts⟩ : Fin cfg0.N) q = colOf t q := Fin.ext (by
    show 1024 * ((8 * (t.val / 8) + s.val) / 8 % 4) + q.val = 1024 * (t.val / 8 % 4) + q.val; omega)
  have eS : stepOf (⟨8 * (t.val / 8) + s.val, hts⟩ : Fin cfg0.N) = s := Fin.ext (by
    show (8 * (t.val / 8) + s.val) % 8 = s.val; omega)
  unfold pointAdd
  rw [dif_pos hts]
  exact addend_eq (actsArr m c) (wordsArr m c) (rowOf t r) (colOf t q) s
    (xblk m c ⟨8 * (t.val / 8) + s.val, hts⟩) (wblk m c ⟨8 * (t.val / 8) + s.val, hts⟩) r q
    (fun j cc => (xblk_apply m c ⟨8 * (t.val / 8) + s.val, hts⟩ r j cc).trans (by rw [eR, eS]))
    (fun j cc => (wblk_apply m c ⟨8 * (t.val / 8) + s.val, hts⟩ q j cc).trans (by rw [eO, eS]))

/-! ## What is written back, and the array after the run -/

/-- The result both programs compute, of this memory's argument arrays. -/
abbrev result (c : Dev nD) : Buf (Elt Ideal) ((c : Thread nD τ).loc main_v4) :=
  dense (actsArr m c) (wordsArr m c) (biasArr m c)

/-- A point that writes the output block back (a last reduction step) writes that block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have hN := lt256 t
  obtain ⟨i0, i1⟩ := index3 t
  rw [Cert.KernelIdeal.Value.flushed3, out_last m c t h1]
  funext y
  obtain ⟨r, q, rfl⟩ : ∃ (r q : Fin 1024), y = ix2 r q := ⟨y 0, y 1, eq_ix2 y⟩
  show k0_pay3 ((outsAt0 m c t.val t.isLt).2) (bblk m c t) (ix2 r q) = result m c (((cfg0.win 3).blk t).view.emb (ix2 r q))
  have e : ((cfg0.win 3).blk t).view.emb (ix2 r q) = ix2 (rowOf t r) (colOf t q) := by
    funext a
    apply Fin.ext
    match a with
    | ⟨0, _⟩ => show win0_3.index t 0 * 1024 + 1 * r.val = 1024 * (t.val / 32) + r.val; rw [i0]; omega
    | ⟨1, _⟩ => show win0_3.index t 1 * 1024 + 1 * q.val = 1024 * (t.val / 8 % 4) + q.val; rw [i1]; omega
  rw [e, outStore_apply, scratch_sum, h1, block_sum, zero_add]
  show _ + bblk m c t (ix2 (0 : Fin 1) q) = _
  rw [show bblk m c t (ix2 (0 : Fin 1) q) = biasArr m c (ix1 (colOf t q)) from bblk_apply m c t q]
  rfl

/-- An entry of the result array is in point t's output block iff each coordinate is in the block's range. -/
theorem mem_outblk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4).slice (win0_3.rect t)).set ↔ _
  rw [View.set_slice_whole, Rect.mem_set_unit]
  exact Iff.rfl

/-- Every entry of the result array is in the block some last reduction step writes back: the one of its row block
    and its output-row block. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hlt : 32 * ((i 0).val / 1024) + 8 * ((i 1).val / 1024) + 7 < cfg0.N :=
    lt_of_lt_of_eq (by omega) (show cfg0.N = 256 from N_0).symm
  refine ⟨⟨32 * ((i 0).val / 1024) + 8 * ((i 1).val / 1024) + 7, hlt⟩, (flush0_3 _).mpr (by
    show (32 * ((i 0).val / 1024) + 8 * ((i 1).val / 1024) + 7) % 8 = 7; omega), ?_⟩
  rw [mem_outblk]
  obtain ⟨e0, e1⟩ := index3 ⟨32 * ((i 0).val / 1024) + 8 * ((i 1).val / 1024) + 7, hlt⟩
  intro a
  match a with
  | ⟨0, _⟩ =>
    show win0_3.index ⟨32 * ((i 0).val / 1024) + 8 * ((i 1).val / 1024) + 7, hlt⟩ 0 * 1024 ≤ (i 0).val
      ∧ (i 0).val < win0_3.index ⟨32 * ((i 0).val / 1024) + 8 * ((i 1).val / 1024) + 7, hlt⟩ 0 * 1024 + 1024
    rw [e0]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_3.index ⟨32 * ((i 0).val / 1024) + 8 * ((i 1).val / 1024) + 7, hlt⟩ 1 * 1024 ≤ (i 1).val
      ∧ (i 1).val < win0_3.index ⟨32 * ((i 0).val / 1024) + 8 * ((i 1).val / 1024) + 7, hlt⟩ 1 * 1024 + 1024
    rw [e1]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- THE RESULT ARRAY after the run. -/
theorem final (c : Dev nD) : (dats m 0 c).arrAt 3 cfg0.N = result m c :=
  (dats m 0 c).arrAt_eq_of_cover 3 (result m c) (flushed_eq m c) covered

/-- The run, read: the result array at `dense` of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.PackedTernary.Kernel

end
-- ==== Proof.lean ====
/-
  A linear layer whose 4096 x 4096 weights are ternary (+1, -1, 0) and stored as 2-bit codes, four to a 32-bit
  word: result[t, o] = (sum over i of x[t, i] * w[o, i]) * alpha + bias[o], where w[o, i] is decoded from bits
  2 * (i mod 4), 2 * (i mod 4) + 1 of word o * 1024 + i / 4 (`Spec.lean`: `dense`).

  The reference unpacks all the words into a 4096 x 4096 matrix and takes one matrix product (`RefIsDense.lean`).
  The kernel never builds that matrix: on a grid of 8 row blocks x 4 output-row blocks x 8 reduction steps it decodes,
  at each point, the four sub-positions of a 1024 x 128 block of words and adds four 1024 x 128 by 128 x 1024
  products into an accumulator it keeps across the eight steps, pairing sub-position j with the activations at
  columns 4 * c + j (laid out beforehand as x3[t, j, c] = x[t, 4 * c + j]); at the last step it scales, adds the bias
  and writes the block out (`KCases.lean`, `KStep.lean`, `KBlocks.lean`, `KValue.lean`).

  Over the extended reals the two are one function: a change of float format is the identity, both matrix products
  are plain sums of products, the decoded weights are the same selects of the same shifted and masked words, and the
  kernel's 8 x 4 x 128 terms are the reference's 4096 terms in another order — column i is 512 * s + 4 * c + j for
  exactly one step s, sub-position j and packed column c. A finite sum in a commutative monoid may be regrouped
  freely, so no finiteness of the inputs is used. The scale and the bias are applied alike on both sides.

  The three frames are the generated ones (the reference's is its generated run with the result dropped); the ideal
  pass rewrote nothing, so `preserves` is trivial.
-/
import proofs.«404494_j91259465105414_3_alg».proof.Defs
import proofs.«404494_j91259465105414_3_alg».proof.Proof.Gen.Kernel
import proofs.«404494_j91259465105414_3_alg».proof.Proof.Gen.Kernel.Skeleton
import proofs.«404494_j91259465105414_3_alg».proof.Proof.Gen.Kernel.Launch
import proofs.«404494_j91259465105414_3_alg».proof.Proof.Gen.Kernel.Points
import proofs.«404494_j91259465105414_3_alg».proof.Proof.Gen.Kernel.Frame
import proofs.«404494_j91259465105414_3_alg».proof.Proof.Gen.KernelIdeal
import proofs.«404494_j91259465105414_3_alg».proof.Proof.Gen.KernelIdeal.Skeleton
import proofs.«404494_j91259465105414_3_alg».proof.Proof.Gen.KernelIdeal.Launch
import proofs.«404494_j91259465105414_3_alg».proof.Proof.Gen.KernelIdeal.Points
import proofs.«404494_j91259465105414_3_alg».proof.Proof.Gen.KernelIdeal.Frame
import proofs.«404494_j91259465105414_3_alg».proof.Proof.Gen.ReferenceIdeal
import proofs.«404494_j91259465105414_3_alg».proof.Proof.Gen.Pre_finite_inputs
import proofs.«404494_j91259465105414_3_alg».proof.Proof.Gen.KernelIdeal.Value
import proofs.«404494_j91259465105414_3_alg».proof.Proof.Gen.ReferenceIdeal.Run
import proofs.«404494_j91259465105414_3_alg».proof.Proof.Gen.ReferenceIdeal.Read
import proofs.«404494_j91259465105414_3_alg».proof.Proof.RefIsDense
import proofs.«404494_j91259465105414_3_alg».proof.Proof.KValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal reading changed no operation. -/
theorem preserves : Cert.preserves_Kernel_KernelIdeal := trivial

/-- Both programs end with `dense` of arguments that agree. -/
theorem algebraic : Cert.algebraic_KernelIdeal_ReferenceIdeal := by
  intro m ρ m' ρ' _ hagree
  refine ⟨fun c => Cert.PackedTernary.Kernel.result m c, Cert.PackedTernary.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.PackedTernary.Ref.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
